-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S256x2 : Shape := ⟨2, ![256, 2]⟩
abbrev S256 : Shape := ⟨1, ![256]⟩
abbrev S1x256x2 : Shape := ⟨3, ![1, 256, 2]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_
  bcast_S_S1x256x2 : S_.BroadcastsInDim S1x256x2 (![] : Fin 0 → Fin S1x256x2.rank)
  reducesTo_S1x256x2_S_d0_1_2 : S1x256x2.ReducesTo [0, 1, 2] S_

variable [Facts]

def fn_part1 {F : FTy → Type} [FloatOps F] (main_arg4 : FVec F S256 .f32) (main_v13 : IVec S_ 1) (main_v16 : IVec S1x256x2 1) : IVec S_ 1 :=
  let main_c_5 : IVec S_ 1 := constantI S_ 1 1#1
  let main_v17 : IVec S_ 1 := (fun x v => Host.reduce IntOp.andi x v reducesTo_S1x256x2_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S262144x2 .f32) (main_arg1 : FVec F S256x2 .f32) (main_arg2 : FVec F S256 .f32) (main_arg3 : FVec F S1x256x2 .f32) (main_arg4 : FVec F S256 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x256x2 .f32 := Host.absf main_arg3
  let main_cst_4 : FVec F S_ .f32 := constant S_ .f32 0x7F800000#32
  let main_v15 : FVec F S1x256x2 .f32 := broadcastInDim S1x256x2 ![] bcast_S_S1x256x2 main_cst_4
  let main_v16 : IVec S1x256x2 1 := cmpf .olt main_v14 main_v15
  fn_part1 (F := F) main_arg4 main_v13 main_v16
-- ==== Kernel.lean ====
abbrev S262144x2 : Shape := ⟨2, ![262144, 2]⟩
abbrev S256x2 : Shape := ⟨2, ![256, 2]⟩
abbrev S256 : Shape := ⟨1, ![256]⟩
abbrev S1x256x2 : Shape := ⟨3, ![1, 256, 2]⟩
abbrev S1x256 : Shape := ⟨2, ![1, 256]⟩
abbrev S262144x256 : Shape := ⟨2, ![262144, 256]⟩
abbrev S8192x2 : Shape := ⟨2, ![8192, 2]⟩
abbrev S8192x256 : Shape := ⟨2, ![8192, 256]⟩
abbrev S2x256 : Shape := ⟨2, ![2, 256]⟩
abbrev S8192 : Shape := ⟨1, ![8192]⟩
abbrev S8192x1 : Shape := ⟨2, ![8192, 1]⟩

abbrev nBuf : Space → Nat
  | .hbm => 9
  | .vmem => 8
  | .smem => 0
  | _ => 0

abbrev bufTy : (tb : Table) → Fin (tcTables nBuf tb) → BufTy
  | .hbm, ⟨0, _⟩ => ⟨S262144x2, .f32⟩
  | .hbm, ⟨1, _⟩ => ⟨S256x2, .f32⟩
  | .hbm, ⟨2, _⟩ => ⟨S256, .f32⟩
  | .hbm, ⟨3, _⟩ => ⟨S1x256x2, .f32⟩
  | .hbm, ⟨4, _⟩ => ⟨S256, .f32⟩
  | .hbm, ⟨5, _⟩ => ⟨S1x256, .f32⟩
  | .hbm, ⟨6, _⟩ => ⟨S256x2, .f32⟩
  | .hbm, ⟨7, _⟩ => ⟨S1x256, .f32⟩
  | .hbm, ⟨8, _⟩ => ⟨S262144x256, .f32⟩
  | .local _ .vmem, ⟨0, _⟩ => ⟨S8192x2, .f32⟩
  | .local _ .vmem, ⟨1, _⟩ => ⟨S8192x2, .f32⟩
  | .local _ .vmem, ⟨2, _⟩ => ⟨S256x2, .f32⟩
  | .local _ .vmem, ⟨3, _⟩ => ⟨S1x256, .f32⟩
  | .local _ .vmem, ⟨4, _⟩ => ⟨S256x2, .f32⟩
  | .local _ .vmem, ⟨5, _⟩ => ⟨S1x256, .f32⟩
  | .local _ .vmem, ⟨6, _⟩ => ⟨S8192x256, .f32⟩
  | .local _ .vmem, ⟨7, _⟩ => ⟨S8192x256, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  shapeCasts_S1x256x2_S256x2 : S1x256x2.ShapeCasts S256x2
  inb_S8192x2_S8192x2_0_0 : ∀ a, (![0, 0] : Fin 2 → Nat) a + S8192x2.size a ≤ S8192x2.size a
  h_S8192x2 : 0 < S8192x2.numel
  inb_S256x2_S256x2_0_0 : ∀ a, (![0, 0] : Fin 2 → Nat) a + S256x2.size a ≤ S256x2.size a
  h_S256x2 : 0 < S256x2.numel
  shapeCasts_S256x2_S256x2 : S256x2.ShapeCasts S256x2
  transposes_S256x2_p1_0_S2x256 : S256x2.Transposes [1, 0] S2x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  reduces_S8192x2_S8192 : S8192x2.Reduces [1] S8192
  shapeCasts_S8192_S8192x1 : S8192.ShapeCasts S8192x1
  reduces_S256x2_S256 : S256x2.Reduces [1] S256
  broadcasts_S8192x1_S8192x256 : S8192x1.Broadcasts S8192x256
  inb_S8192x256_S8192x256_0_0 : ∀ a, (![0, 0] : Fin 2 → Nat) a + S8192x256.size a ≤ S8192x256.size a
  h_S8192x256 : 0 < S8192x256.numel
  dot_S8192x2_S2x256_S8192x256_1_0_0_1_n_n_wf : DotDims.WF S8192x2 S2x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S262144x2.size a
  hwx0_0 : ∀ i : grid0.Coords, EltTy.bits .f32 = 32 ∨ (Rect.block (s := S262144x2) S8192x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S256x2.size a
  hwx0_1 : ∀ i : grid0.Coords, EltTy.bits .f32 = 32 ∨ (Rect.block (s := S256x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2.size a ≤ S256x2.size a
  hwx0_3 : ∀ i : grid0.Coords, EltTy.bits .f32 = 32 ∨ (Rect.block (s := S256x2) S256x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x256.size a ≤ S262144x256.size a
  hwx0_5 : ∀ i : grid0.Coords, EltTy.bits .f32 = 32 ∨ (Rect.block (s := S262144x256) S8192x256.size (cc0_transform_5 i) (hinb0_5 i)).WholeWords (EltTy.packing .f32)

variable [Facts₀]

def dot_S8192x2_S2x256_S8192x256_1_0_0_1_n_n : DotDims S8192x2 S2x256 S8192x256 where
  lhsContracting := [1]
  rhsContracting := [0]
  lhsNonContracting := [0]
  rhsNonContracting := [1]
  lhsBatch := []
  rhsBatch := []
  wf := dot_S8192x2_S2x256_S8192x256_1_0_0_1_n_n_wf

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8192x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x2 : Shape := ⟨2, ![262144, 2]⟩
abbrev S256x2 : Shape := ⟨2, ![256, 2]⟩
abbrev S256 : Shape := ⟨1, ![256]⟩
abbrev S1x256x2 : Shape := ⟨3, ![1, 256, 2]⟩
abbrev S2x256 : Shape := ⟨2, ![2, 256]⟩
abbrev S262144x256 : Shape := ⟨2, ![262144, 256]⟩
abbrev S1x256 : Shape := ⟨2, ![1, 256]⟩
abbrev S262144x1x2 : Shape := ⟨3, ![262144, 1, 2]⟩
abbrev S262144x256x2 : Shape := ⟨3, ![262144, 256, 2]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S256x2, .f32⟩
  | .hbm, ⟨2, _⟩ => ⟨S256, .f32⟩
  | .hbm, ⟨3, _⟩ => ⟨S1x256x2, .f32⟩
  | .hbm, ⟨4, _⟩ => ⟨S256, .f32⟩
  | .hbm, ⟨5, _⟩ => ⟨S2x256, .f32⟩
  | .hbm, ⟨6, _⟩ => ⟨S262144x256, .f32⟩
  | .hbm, ⟨7, _⟩ => ⟨S1x256, .f32⟩
  | .hbm, ⟨8, _⟩ => ⟨S262144x256, .f32⟩
  | .hbm, ⟨9, _⟩ => ⟨S262144x256, .f32⟩
  | .hbm, ⟨10, _⟩ => ⟨S262144x1x2, .f32⟩
  | .hbm, ⟨11, _⟩ => ⟨S262144x256x2, .f32⟩
  | .hbm, ⟨12, _⟩ => ⟨S262144x256x2, .f32⟩
  | .hbm, ⟨13, _⟩ => ⟨S262144x256x2, .f32⟩
  | .hbm, ⟨14, _⟩ => ⟨S262144x256x2, .f32⟩
  | .hbm, ⟨15, _⟩ => ⟨S_, .f32⟩
  | .hbm, ⟨16, _⟩ => ⟨S262144x256, .f32⟩
  | .hbm, ⟨17, _⟩ => ⟨S262144x256, .f32⟩
  | .hbm, ⟨18, _⟩ => ⟨S_, .f32⟩
  | .hbm, ⟨19, _⟩ => ⟨S262144x256, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S262144x256, .f32⟩
  | .hbm, ⟨25, _⟩ => ⟨S262144x256, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  transposes_S256x2_S2x256_1_0 : S256x2.Transposes [1, 0] S2x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S262144x2_S262144x1x2_0_2 : S262144x2.BroadcastsInDim S262144x1x2 (![0, 2] : Fin 2 → Fin S262144x1x2.rank)
  bcast_S262144x1x2_S262144x256x2_0_1_2 : S262144x1x2.BroadcastsInDim S262144x256x2 (![0, 1, 2] : Fin 3 → Fin S262144x256x2.rank)
  bcast_S1x256x2_S262144x256x2_0_1_2 : S1x256x2.BroadcastsInDim S262144x256x2 (![0, 1, 2] : Fin 3 → Fin S262144x256x2.rank)
  reducesTo_S262144x256x2_S262144x256_d2 : S262144x256x2.ReducesTo [2] S262144x256
  h_S_ : 0 < S_.numel
  bcast_S_S262144x256 : S_.BroadcastsInDim S262144x256 (![] : Fin 0 → Fin S262144x256.rank)
  dot_S262144x2_S2x256_S262144x256_1_0_0_1_n_n_wf : DotDims.WF S262144x2 S2x256 S262144x256 [1] [0] [0] [1] [] []

variable [Facts₀]

def dot_S262144x2_S2x256_S262144x256_1_0_0_1_n_n : DotDims S262144x2 S2x256 S262144x256 where
  lhsContracting := [1]
  rhsContracting := [0]
  lhsNonContracting := [0]
  rhsNonContracting := [1]
  lhsBatch := []
  rhsBatch := []
  wf := dot_S262144x2_S2x256_S262144x256_1_0_0_1_n_n_wf

class Facts : Prop extends Facts₀ where

variable [Facts]
-- ==== Proof.FiniteInputs.lean ====
/-
  What the precondition says of x and μ.

  The precondition is the conjunction, over the five arguments, of "every entry has absolute value below +∞". On the
  extended reals |a| = max a (−a) is +∞ exactly at the two infinities, so each conjunct says that every entry of its
  argument is a real number. The law between the two spellings of the squared distance needs this of the rows x and of
  the centres μ only.
-/
import proofs.«179647_j82532091560569_1_alg».proof.Pre_finite_inputs
import proofs.«179647_j82532091560569_1_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Gabor.Finite

open Cert.Pre_finite_inputs

/-- The scalar shape has one index. -/
instance : Subsingleton (⟨0, ![]⟩ : Shape).Idx := ⟨fun a b => funext fun d => d.elim0⟩

/-- The f32 pattern with all exponent bits set and no fraction bit denotes +∞. -/
theorem ofBits_inf : Ideal.ofBits .f32 0x7F800000#32 = ⊤ := by
  simp [Ideal.ofBits, Ideal.ieee]

/-- An extended real whose absolute value is below +∞ is a real number. -/
theorem real_of_abs_lt_inf (a : EReal)
    (h : FloatOps.cmpf (F := Ideal) (φ := .f32) .olt (FloatOps.hostAbsf a) (Ideal.ofBits .f32 0x7F800000#32) = 1#1) :
    ∃ r : ℝ, a = r := by
  rw [ofBits_inf] at h
  induction a using EReal.rec with
  | bot => simp [Ideal.cmpf_def, Ideal.absf_def, Ideal.cmp] at h
  | top => simp [Ideal.cmpf_def, Ideal.absf_def, Ideal.cmp] at h
  | coe r => exact ⟨r, rfl⟩

/-- Under the precondition every entry of x and every entry of μ is a real number. -/
theorem of_pre (x : FVec Ideal S262144x2 .f32) (W : FVec Ideal S256x2 .f32) (b : FVec Ideal S256 .f32)
    (mu : FVec Ideal S1x256x2 .f32) (gamma : FVec Ideal S256 .f32)
    (h : fn (F := Ideal) x W b mu gamma = fun _ => 1#1) :
    (∀ i : S262144x2.Idx, ∃ r : ℝ, x i = r) ∧ (∀ i : S1x256x2.Idx, ∃ r : ℝ, mu i = r) := by
  have h0 := congrFun h ix0
  dsimp only [fn, fn_part1, andi] at h0
  obtain ⟨h18, -⟩ := IntOp.andi_eq_one.1 h0
  obtain ⟨h13, h17⟩ := IntOp.andi_eq_one.1 h18
  obtain ⟨h8, -⟩ := IntOp.andi_eq_one.1 h13
  obtain ⟨h3, -⟩ := IntOp.andi_eq_one.1 h8
  exact ⟨fun i => real_of_abs_lt_inf _ (Host.reduce_andi_all _ _ _ _ ix0 h3 i),
    fun i => real_of_abs_lt_inf _ (Host.reduce_andi_all _ _ _ _ ix0 h17 i)⟩

end Cert.Gabor.Finite

end
-- ==== Proof.GaborLaw.lean ====
/-
  The function both programs compute, and the law that joins their two spellings of it.

  A coordinate row x_p ∈ ℝ² is scored against output feature q — frequency W_q ∈ ℝ², phase b_q, centre μ_q ∈ ℝ²,
  bandwidth γ_q — by a sinusoid under a Gaussian envelope:

      field (p, q) = sin (⟨x_p, W_q⟩ + b_q) · exp ((−½ · ‖x_p − μ_q‖²) · γ_q).

  The squared distance has two spellings. Summed directly it is (0 +) ∑ₖ (x_pk − μ_qk)². Expanded it is
  (‖x_p‖² + ‖μ_q‖²) − 2 · ⟨x_p, μ_q⟩, three sums over the two coordinates. On real numbers the two agree by
  (a − c)² = a² + c² − 2ac, term by term. On the extended reals the expansion is no identity (at a = +∞ the
  right side is ∞ − ∞), so the law is stated for a finite row and a finite centre; everything around the squared
  distance — the inner product with W, the phase, the factor −½, the bandwidth, sin and exp — is the same expression in
  both spellings and needs no finiteness.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Gabor

/-- The f32 pattern of `2.0` (sign 0, exponent 128, fraction 0) denotes the real number 2. -/
theorem ofBits_two : Ideal.ofBits .f32 0x40000000#32 = ((2 : ℝ) : EReal) := by
  simp [Ideal.ofBits, Ideal.ieee, -EReal.coe_mul]; norm_num

/-- ‖a − c‖² over two coordinates, summed directly from the zero pattern: 0 + ∑ₖ (aₖ − cₖ)². -/
def distSq (a c : Fin 2 → EReal) : EReal :=
  Ideal.ofBits .f32 0x00000000#32 + ∑ k : Fin 2, (a k - c k) * (a k - c k)

/-- The same squared distance expanded: (∑ₖ aₖ² + ∑ₖ cₖ²) − 2 · ∑ₖ aₖ cₖ, the factor 2 as its f32 pattern. -/
def distSqExpanded (a c : Fin 2 → EReal) : EReal :=
  ((∑ k : Fin 2, a k * a k) + ∑ k : Fin 2, c k * c k) - Ideal.ofBits .f32 0x40000000#32 * ∑ k : Fin 2, a k * c k

/-- On finite points the expansion is the squared distance: with a = (a₀, a₁) and c = (c₀, c₁) real, both sides are
    the real number (a₀ − c₀)² + (a₁ − c₁)² = a₀² + a₁² + c₀² + c₁² − 2 (a₀ c₀ + a₁ c₁). -/
theorem distSqExpanded_eq (a c : Fin 2 → EReal) (ha : ∀ k, ∃ r : ℝ, a k = r) (hc : ∀ k, ∃ r : ℝ, c k = r) :
    distSqExpanded a c = distSq a c := by
  obtain ⟨a0, h0⟩ := ha 0
  obtain ⟨a1, h1⟩ := ha 1
  obtain ⟨c0, g0⟩ := hc 0
  obtain ⟨c1, g1⟩ := hc 1
  unfold distSqExpanded distSq
  simp only [Fin.sum_univ_two, h0, h1, g0, g1, ofBits_two, Ideal.ofBits_zero_f32, zero_add]
  simp only [← EReal.coe_mul, ← EReal.coe_add, ← EReal.coe_sub]
  congr 1
  ring

variable (x : (⟨2, ![262144, 2]⟩ : Shape).Idx → EReal) (W : (⟨2, ![256, 2]⟩ : Shape).Idx → EReal)
  (b : (⟨1, ![256]⟩ : Shape).Idx → EReal) (mu : (⟨3, ![1, 256, 2]⟩ : Shape).Idx → EReal)
  (gamma : (⟨1, ![256]⟩ : Shape).Idx → EReal)

/-- The field at row `p`, feature `q`: sin (⟨x_p, W_q⟩ + b_q) · exp ((−½ · ‖x_p − μ_q‖²) · γ_q), the squared distance
    summed directly and −½ as its f32 pattern. -/
def entry (p : Fin 262144) (q : Fin 256) : EReal :=
  Ideal.sin ((∑ k : Fin 2, x (ix2 p k) * W (ix2 q k)) + b (ix1 q))
    * Ideal.exp ((Ideal.ofBits .f32 0xBF000000#32
        * distSq (fun k => x (ix2 p k)) (fun k => mu (ix3 (0 : Fin 1) q k))) * gamma (ix1 q))

/-- The same entry with the squared distance expanded. -/
def entryExpanded (p : Fin 262144) (q : Fin 256) : EReal :=
  Ideal.sin ((∑ k : Fin 2, x (ix2 p k) * W (ix2 q k)) + b (ix1 q))
    * Ideal.exp ((Ideal.ofBits .f32 0xBF000000#32
        * distSqExpanded (fun k => x (ix2 p k)) (fun k => mu (ix3 (0 : Fin 1) q k))) * gamma (ix1 q))

/-- Where row `p` of `x` and centre `q` of `mu` are finite the two spellings of the entry agree. -/
theorem entryExpanded_eq (p : Fin 262144) (q : Fin 256) (hx : ∀ k : Fin 2, ∃ r : ℝ, x (ix2 p k) = r)
    (hmu : ∀ k : Fin 2, ∃ r : ℝ, mu (ix3 (0 : Fin 1) q k) = r) :
    entryExpanded x W b mu gamma p q = entry x W b mu gamma p q := by
  unfold entryExpanded entry
  rw [distSqExpanded_eq _ _ hx hmu]

/-- The whole [262144, 256] field, index by index. -/
def field : (⟨2, ![262144, 256]⟩ : Shape).Idx → EReal := fun i => entry x W b mu gamma (i 0) (i 1)

/-- The field at `(p, q)` is the entry there. -/
theorem field_ix2 (p : Fin 262144) (q : Fin 256) : field x W b mu gamma (ix2 p q) = entry x W b mu gamma p q := rfl

end Cert.Gabor

end
-- ==== Proof.ReferenceField.lean ====
/-
  The reference computes the field.

  Read one stage at a time at an index (p, q), the reference's result is
      sin (∑ₖ x[p,k] · Wᵀ[k,q] + b[q]) · exp ((−½ · (0 + ∑ₖ (x[p,k] − μ[0,q,k])²)) · γ[q]):
  the transpose of W reads W[q,k]; the phase and the bandwidth are broadcast from [256] through [1,256] along the
  rows; x is broadcast along a new middle axis and μ along the rows before they are subtracted, squared and summed
  over the last axis. That is the entry of `Cert.Gabor.field` at (p, q), the squared distance summed directly.
-/
import proofs.«179647_j82532091560569_1_alg».proof.Proof.Gen.ReferenceIdeal.Read
import proofs.«179647_j82532091560569_1_alg».proof.Proof.GaborLaw

noncomputable section

open scoped BigOperators
open Idealize.ShloMosaic Idealize.ShloMosaic.ValueIdx

namespace Cert.Gabor.Reference

open Cert.ReferenceIdeal Cert.ReferenceIdeal.Read

/-! The composed index maps of the layout stages, at (p, q) and a coordinate k. -/

/-- The product's left operand at (p, q), k is x at (p, k). -/
theorem lhs_at (p : Fin 262144) (q : Fin 256) (k : Fin 2) : lidx_main_v1 (ix2 p q) k = ix2 p k :=
  funext fun a => match a with | ⟨0, _⟩ => rfl | ⟨1, _⟩ => rfl

/-- Its right operand, the transposed weights at (k, q), is W at (q, k). -/
theorem rhs_at (p : Fin 262144) (q : Fin 256) (k : Fin 2) : idx_main_v0 (ridx_main_v1 (ix2 p q) k) = ix2 q k :=
  funext fun a => match a with | ⟨0, _⟩ => rfl | ⟨1, _⟩ => rfl

/-- The phase, broadcast to [1,256] and then along the rows, at (p, q) is b at q. -/
theorem phase_at (p : Fin 262144) (q : Fin 256) : idx_main_v2 (idx_main_v3 (ix2 p q)) = ix1 q :=
  funext fun a => match a with | ⟨0, _⟩ => rfl

/-- The bandwidth likewise. -/
theorem bandwidth_at (p : Fin 262144) (q : Fin 256) : idx_main_v14 (idx_main_v15 (ix2 p q)) = ix1 q :=
  funext fun a => match a with | ⟨0, _⟩ => rfl

/-- x broadcast along the features, at (p, q, k), is x at (p, k). -/
theorem row_at (p : Fin 262144) (q : Fin 256) (k : Fin 2) :
    idx_main_v5 (idx_main_v6 (idx_main_v10 (ix2 p q) k)) = ix2 p k :=
  funext fun a => match a with | ⟨0, _⟩ => rfl | ⟨1, _⟩ => rfl

/-- μ broadcast along the rows, at (p, q, k), is μ at (0, q, k). -/
theorem centre_at (p : Fin 262144) (q : Fin 256) (k : Fin 2) :
    idx_main_v7 (idx_main_v10 (ix2 p q) k) = ix3 (0 : Fin 1) q k :=
  funext fun a => match a with | ⟨0, _⟩ => rfl | ⟨1, _⟩ => rfl | ⟨2, _⟩ => rfl

/-- The reference's result, as a function of its five arguments, is the field. -/
theorem result_eq_field (x : (⟨S262144x2, .f32⟩ : BufTy).Contents (Elt Ideal)) (W : (⟨S256x2, .f32⟩ : BufTy).Contents (Elt Ideal))
    (b : (⟨S256, .f32⟩ : BufTy).Contents (Elt Ideal)) (mu : (⟨S1x256x2, .f32⟩ : BufTy).Contents (Elt Ideal))
    (gamma : (⟨S256, .f32⟩ : BufTy).Contents (Elt Ideal)) :
    val_main_v18 (F := Ideal) x W b mu gamma = Cert.Gabor.field x W b mu gamma := by
  funext i
  obtain ⟨p, q, rfl⟩ : ∃ (p : Fin 262144) (q : Fin 256), i = ix2 p q := ⟨i 0, i 1, eq_ix2 i⟩
  rw [Cert.Gabor.field_ix2, val_main_v18_apply, val_main_v11_apply, val_main_v4_apply, val_main_v1_apply, val_main_v3_apply,
    val_main_v2_apply, val_main_v17_apply, val_main_v16_apply, val_main_v13_apply, val_main_v12_apply, val_main_cst_0_apply,
    val_main_v10_apply, val_main_cst_apply, val_main_v15_apply, val_main_v14_apply]
  simp only [val_main_v0_apply, val_main_v9_apply, val_main_v8_apply, val_main_v6_apply, val_main_v5_apply, val_main_v7_apply,
    lhs_at, rhs_at, phase_at, bandwidth_at, row_at, centre_at]
  unfold Cert.Gabor.entry Cert.Gabor.distSq
  simp only [Ideal.mulf_def, Ideal.addf_def, Ideal.subf_def, Ideal.ofBits_def, Ideal.hostUnary_sin_def, Ideal.hostUnary_exp_def]

end Cert.Gabor.Reference

end
-- ==== Proof.LibColumn.lean ====
/-
  A column kept after a sum over the last axis, read at an index.

  A length-a vector viewed as an a × 1 column reads, at (i, 0), the vector at i; an a × 1 column repeated along
  b columns reads, at (i, j), the column at (i, 0), whatever j. Together they say that a row total broadcast
  back over its row is that total at every column.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, q)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelEntry.lean ====
/-
  One entry of the block the kernel body stores.

  The body holds an [8192, 2] block of rows x, the whole [256, 2] weights W and centres μ, and the phase and the
  bandwidth as [1, 256] rows. At row r and feature q it stores
      sin (∑ₖ x[r,k] · W[q,k] + b[0,q]) · exp ((−½ · ((∑ₖ x[r,k]² + ∑ₖ μ[q,k]²) − 2 · ∑ₖ x[r,k] · μ[q,k])) · γ[0,q]):
  the two products are against the transposes of W and of μ, into a zero accumulator, so each is the plain sum over the
  two coordinates; the squared norms are sums along the last axis, the rows' kept as a column and repeated across the
  features, the centres' laid out as a row and repeated down the rows. This is the expanded spelling of the squared
  distance.
-/
import proofs.«179647_j82532091560569_1_alg».proof.Proof.Gen.KernelIdeal.Skeleton
import proofs.«179647_j82532091560569_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Gabor.Kernel

open Cert.KernelIdeal Cert.KernelIdeal.Gen

/-! ## The product against a transposed [256, 2] matrix -/

/-- Axis 0 of the left operand's index is the output's row. -/
theorem lhs_axis0 (i : S8192x256.Idx) (c : dot_S8192x2_S2x256_S8192x256_1_0_0_1_n_n.contr.Idx) : (dot_S8192x2_S2x256_S8192x256_1_0_0_1_n_n.lhsIdx i c 0).val = (i 0).val := by
  unfold DotDims.lhsIdx
  rw [dif_neg (show ¬(0 : Fin S8192x2.rank) ∈ dot_S8192x2_S2x256_S8192x256_1_0_0_1_n_n.lhsBatch by decide), dif_pos (show (0 : Fin S8192x2.rank) ∈ dot_S8192x2_S2x256_S8192x256_1_0_0_1_n_n.lhsNonContracting by decide)]
  rfl
/-- Axis 1 of the left operand's index is the contraction position. -/
theorem lhs_axis1 (i : S8192x256.Idx) (c : dot_S8192x2_S2x256_S8192x256_1_0_0_1_n_n.contr.Idx) : (dot_S8192x2_S2x256_S8192x256_1_0_0_1_n_n.lhsIdx i c 1).val = (c ⟨0, by decide⟩).val :=
  dot_S8192x2_S2x256_S8192x256_1_0_0_1_n_n.lhsIdx_val_of_single rfl i c
/-- Axis 0 of the right operand's index is the contraction position. -/
theorem rhs_axis0 (i : S8192x256.Idx) (c : dot_S8192x2_S2x256_S8192x256_1_0_0_1_n_n.contr.Idx) : (dot_S8192x2_S2x256_S8192x256_1_0_0_1_n_n.rhsIdx i c 0).val = (c ⟨0, by decide⟩).val :=
  dot_S8192x2_S2x256_S8192x256_1_0_0_1_n_n.rhsIdx_val_of_single rfl i c
/-- Axis 1 of the right operand's index is the output's column. -/
theorem rhs_axis1 (i : S8192x256.Idx) (c : dot_S8192x2_S2x256_S8192x256_1_0_0_1_n_n.contr.Idx) : (dot_S8192x2_S2x256_S8192x256_1_0_0_1_n_n.rhsIdx i c 1).val = (i 1).val := by
  unfold DotDims.rhsIdx
  rw [dif_neg (show ¬(1 : Fin S2x256.rank) ∈ dot_S8192x2_S2x256_S8192x256_1_0_0_1_n_n.rhsBatch by decide), dif_pos (show (1 : Fin S2x256.rank) ∈ dot_S8192x2_S2x256_S8192x256_1_0_0_1_n_n.rhsNonContracting by decide)]
  rfl

/-- The block of rows times the transpose of a [256, 2] matrix `Y`, into zero, at (r, q): ∑ₖ l[r,k] · Y[q,k]. -/
theorem product_at (l : FVec Ideal S8192x2 .f32) (Y : FVec Ideal S256x2 .f32) (r : Fin 8192) (q : Fin 256) :
    matmul dot_S8192x2_S2x256_S8192x256_1_0_0_1_n_n none l (transpose S2x256 [1, 0] Y transposes_S256x2_p1_0_S2x256) (constant (F := Ideal) S8192x256 .f32 0x00000000#32) (ix2 r q)
      = ∑ k : Fin 2, l (ix2 r k) * Y (ix2 q k) := by
  refine (Ideal.matmul_constant_zero_apply dot_S8192x2_S2x256_S8192x256_1_0_0_1_n_n none l _ _).trans ?_
  rw [← Equiv.sum_comp (contrEquiv1 dot_S8192x2_S2x256_S8192x256_1_0_0_1_n_n 2 rfl rfl).symm]
  refine Finset.sum_congr rfl fun k _ => ?_
  have hk := contrEquiv1_symm_val dot_S8192x2_S2x256_S8192x256_1_0_0_1_n_n 2 rfl rfl k
  have el : dot_S8192x2_S2x256_S8192x256_1_0_0_1_n_n.lhsIdx (ix2 r q) ((contrEquiv1 dot_S8192x2_S2x256_S8192x256_1_0_0_1_n_n 2 rfl rfl).symm k) = ix2 r k := funext fun a => Fin.ext (by
    match a with
    | ⟨0, _⟩ => exact lhs_axis0 _ _
    | ⟨1, _⟩ => exact (lhs_axis1 _ _).trans hk)
  have er : dot_S8192x2_S2x256_S8192x256_1_0_0_1_n_n.rhsIdx (ix2 r q) ((contrEquiv1 dot_S8192x2_S2x256_S8192x256_1_0_0_1_n_n 2 rfl rfl).symm k) = ix2 k q := funext fun a => Fin.ext (by
    match a with
    | ⟨0, _⟩ => exact (rhs_axis0 _ _).trans hk
    | ⟨1, _⟩ => exact rhs_axis1 _ _)
  rw [el, er, transpose_ix2_apply]

/-! ## The squared norms -/

/-- The sum along the last axis of an [8192, 2] block, at row r: the two entries of the row added. -/
theorem rowSum_at (v : FVec Ideal S8192x2 .f32) (r : Fin 8192) :
    multiReduction .add [1] S8192 v 0x00000000#32 reduces_S8192x2_S8192 (.inl rfl) rfl (ix1 r) = ∑ k : Fin 2, v (ix2 r k) := by
  refine (Ideal.multiReduction_add_single v 0x00000000#32 reduces_S8192x2_S8192 (.inl rfl) rfl (ix1 r)).trans ?_
  exact Finset.sum_congr rfl fun k _ => congrArg v (funext fun a => Fin.ext (by
    match a with
    | ⟨0, _⟩ => rfl
    | ⟨1, _⟩ => rfl))

/-- The sum along the last axis of a [256, 2] matrix, at row q. -/
theorem centreSum_at (v : FVec Ideal S256x2 .f32) (q : Fin 256) :
    multiReduction .add [1] S256 v 0x00000000#32 reduces_S256x2_S256 (.inl rfl) rfl (ix1 q) = ∑ k : Fin 2, v (ix2 q k) := by
  refine (Ideal.multiReduction_add_single v 0x00000000#32 reduces_S256x2_S256 (.inl rfl) rfl (ix1 q)).trans ?_
  exact Finset.sum_congr rfl fun k _ => congrArg v (funext fun a => Fin.ext (by
    match a with
    | ⟨0, _⟩ => rfl
    | ⟨1, _⟩ => rfl))

/-! ## The stored entry -/

/-- The body's stored value at row r, feature q, from the loaded blocks. -/
theorem payload_at (xb : Vec Ideal S8192x2 .f32) (Wv muv : Vec Ideal S256x2 .f32) (bv gv : Vec Ideal S1x256 .f32)
    (r : Fin 8192) (q : Fin 256) :
    k0_pay1 (F := Ideal) xb Wv muv bv gv (ix2 r q)
      = Ideal.sin ((∑ k : Fin 2, xb (ix2 r k) * Wv (ix2 q k)) + bv (ix2 (0 : Fin 1) q))
        * Ideal.exp ((Ideal.ofBits .f32 0xBF000000#32
            * (((∑ k : Fin 2, xb (ix2 r k) * xb (ix2 r k)) + ∑ k : Fin 2, muv (ix2 q k) * muv (ix2 q k))
                - Ideal.ofBits .f32 0x40000000#32 * ∑ k : Fin 2, xb (ix2 r k) * muv (ix2 q k)))
          * gv (ix2 (0 : Fin 1) q)) := by
  unfold k0_pay1
  simp only [shapeCast_self]
  simp only [sin, exp, mulf, addf, subf, broadcast]
  simp only [product_at, broadcastTo_1b_ab_apply, Cert.LibColumn.broadcastTo_a1_ab_apply, Cert.LibColumn.shapeCast_a_a1_apply,
    shapeCast_a_1a_apply, rowSum_at, centreSum_at, Ideal.sin_def, Ideal.exp_def, Ideal.mulf_def, Ideal.addf_def, Ideal.subf_def,
    Ideal.ofBits_def]
  rw [product_at, product_at, rowSum_at, centreSum_at]
  simp only [mulf_apply]

end Cert.Gabor.Kernel

end
-- ==== Proof.KernelField.lean ====
/-
  From the stored blocks to the whole result array.

  Grid point t of 32 stages rows 8192·t … 8192·t + 8191 of x, the whole of W, and — after the three reshapes @main
  does before the call — the phase and the bandwidth as [1, 256] rows and the centres as a [256, 2] matrix; it
  writes back rows 8192·t … 8192·t + 8191 of the [262144, 256] result. So the entry it stores at (r, q) is the field at
  (8192·t + r, q) in the expanded spelling of the squared distance, which on finite x and μ is the field itself; the 32
  blocks tile the rows, point ⌊p / 8192⌋ covering row p, so the array ends holding the field.
-/
import proofs.«179647_j82532091560569_1_alg».proof.Proof.Gen.KernelIdeal.Value
import proofs.«179647_j82532091560569_1_alg».proof.Proof.KernelEntry
import proofs.«179647_j82532091560569_1_alg».proof.Proof.GaborLaw
import Idealize.ShloMosaic.Lib.Pipeline.Value
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.Gabor.Kernel

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: the rows of x and of the result move with the point, every other window stays at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row r of point t's block is row 8192·t + r of the array. -/
def rowOf (t : Fin cfg0.N) (r : Fin 8192) : Fin 262144 :=
  ⟨t.val * 8192 + r.val, by have h := t.isLt; have hN : cfg0.N = 32 := N_0; omega⟩

/-! ## The arrays the three reshapes leave -/

theorem phase_arr (c : Dev nD) : (V m c main_v0 : S1x256.Idx → Elt Ideal .f32)
    = shapeCast S1x256 (m ((c : Thread nD τ).loc main_arg2)) shapeCasts_S256_S1x256 := by
  dsimp only [V, hostOps0]
  after_results
  rfl

/-- The centres as the region finds them: μ with its leading unit axis dropped. -/
theorem centres_arr (c : Dev nD) : (V m c main_v1 : S256x2.Idx → Elt Ideal .f32)
    = shapeCast S256x2 (m ((c : Thread nD τ).loc main_arg3)) shapeCasts_S1x256x2_S256x2 := by
  dsimp only [V, hostOps0]
  after_results
  rfl

/-- The bandwidth as the region finds it: γ as one row. -/
theorem bandwidth_arr (c : Dev nD) : (V m c main_v2 : S1x256.Idx → Elt Ideal .f32)
    = shapeCast S1x256 (m ((c : Thread nD τ).loc main_arg4)) shapeCasts_S256_S1x256 := by
  dsimp only [V, hostOps0]
  after_results
  rfl

/-! ## The input blocks at a point, read at an entry -/

/-- Row r of point t's block of x is row 8192·t + r of x. -/
theorem rows_block (c : Dev nD) (t : Fin cfg0.N) (r : Fin 8192) (k : Fin 2) :
    (iblk m c 0 t : Vec Ideal S8192x2 .f32) (ix2 r k)
      = (m ((c : Thread nD τ).loc main_arg0) : S262144x2.Idx → Elt Ideal .f32) (ix2 (rowOf t r) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 8192 + 1 * r.val = t.val * 8192 + r.val; rw [e0]; omega
  | ⟨1, _⟩ => show win0_0.index t 1 * 2 + 1 * k.val = k.val; rw [e1]; omega

/-- Every point's block of W is W. -/
theorem weights_block (c : Dev nD) (t : Fin cfg0.N) (q : Fin 256) (k : Fin 2) :
    (iblk m c 1 t : Vec Ideal S256x2 .f32) (ix2 q k)
      = (m ((c : Thread nD τ).loc main_arg1) : S256x2.Idx → Elt Ideal .f32) (ix2 q k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t 0 * 256 + 1 * q.val = q.val; rw [e0]; omega
  | ⟨1, _⟩ => show win0_1.index t 1 * 2 + 1 * k.val = k.val; rw [e1]; omega

/-- Every point's block of the phase row, at (0, q), is b at q. -/
theorem phase_block (c : Dev nD) (t : Fin cfg0.N) (q : Fin 256) :
    (iblk m c 2 t : Vec Ideal S1x256 .f32) (ix2 (0 : Fin 1) q)
      = (m ((c : Thread nD τ).loc main_arg2) : S256.Idx → Elt Ideal .f32) (ix1 q) := by
  obtain ⟨-, -, -, -, e0, e1, -⟩ := idx_facts t
  unfold iblk
  rw [View.read_apply]
  show V m c main_v0 _ = _
  rw [phase_arr]
  refine Eq.trans (congrArg _ ?_) (shapeCast_a_1a_apply _ shapeCasts_S256_S1x256 (0 : Fin 1) q)
  funext a
  apply Fin.ext
  match a with
  | ⟨0, _⟩ => show win0_2.index t 0 * 1 + 1 * 0 = 0; rw [e0]
  | ⟨1, _⟩ => show win0_2.index t 1 * 256 + 1 * q.val = q.val; rw [e1]; omega

/-- Every point's block of the centres, at (q, k), is μ at (0, q, k). -/
theorem centres_block (c : Dev nD) (t : Fin cfg0.N) (q : Fin 256) (k : Fin 2) :
    (iblk m c 3 t : Vec Ideal S256x2 .f32) (ix2 q k)
      = (m ((c : Thread nD τ).loc main_arg3) : S1x256x2.Idx → Elt Ideal .f32) (ix3 (0 : Fin 1) q k) := by
  obtain ⟨-, -, -, -, -, -, e0, e1, -⟩ := idx_facts t
  unfold iblk
  rw [View.read_apply]
  show V m c main_v1 _ = _
  rw [centres_arr]
  refine Eq.trans (congrArg _ ?_) (shapeCast_1ab_ab_apply _ shapeCasts_S1x256x2_S256x2 q k)
  funext a
  apply Fin.ext
  match a with
  | ⟨0, _⟩ => show win0_3.index t 0 * 256 + 1 * q.val = q.val; rw [e0]; omega
  | ⟨1, _⟩ => show win0_3.index t 1 * 2 + 1 * k.val = k.val; rw [e1]; omega

/-- Every point's block of the bandwidth row, at (0, q), is γ at q. -/
theorem bandwidth_block (c : Dev nD) (t : Fin cfg0.N) (q : Fin 256) :
    (iblk m c 4 t : Vec Ideal S1x256 .f32) (ix2 (0 : Fin 1) q)
      = (m ((c : Thread nD τ).loc main_arg4) : S256.Idx → Elt Ideal .f32) (ix1 q) := by
  obtain ⟨-, -, -, -, -, -, -, -, e0, e1, -⟩ := idx_facts t
  unfold iblk
  rw [View.read_apply]
  show V m c main_v2 _ = _
  rw [bandwidth_arr]
  refine Eq.trans (congrArg _ ?_) (shapeCast_a_1a_apply _ shapeCasts_S256_S1x256 (0 : Fin 1) q)
  funext a
  apply Fin.ext
  match a with
  | ⟨0, _⟩ => show win0_4.index t 0 * 1 + 1 * 0 = 0; rw [e0]
  | ⟨1, _⟩ => show win0_4.index t 1 * 256 + 1 * q.val = q.val; rw [e1]; omega

/-- Entry (r, q) of point t's block of the result sits at (8192·t + r, q) of the array. -/
theorem out_index (t : Fin cfg0.N) (r : Fin 8192) (q : Fin 256) :
    ((cfg0.win 5).blk t).view.emb (ix2 r q) = (ix2 (rowOf t r) q : S262144x256.Idx) := by
  obtain ⟨-, -, -, -, -, -, -, -, -, -, e0, e1⟩ := idx_facts t
  funext a
  apply Fin.ext
  match a with
  | ⟨0, _⟩ => show win0_5.index t 0 * 8192 + 1 * r.val = t.val * 8192 + r.val; rw [e0]; omega
  | ⟨1, _⟩ => show win0_5.index t 1 * 256 + 1 * q.val = q.val; rw [e1]; omega

/-! ## The stored entry is the field's -/

/-- From blocks that hold row p of x, the whole of W, the centres, the phase and the bandwidth, the body stores at
    (r, q) the field's entry (p, q), where row p of x and centre q of μ are finite: the stored value is the expanded
    spelling (`payload_at`), and the law turns it into the direct one. -/
theorem entry_of_blocks (x : (⟨2, ![262144, 2]⟩ : Shape).Idx → EReal) (W : (⟨2, ![256, 2]⟩ : Shape).Idx → EReal)
    (b : (⟨1, ![256]⟩ : Shape).Idx → EReal) (mu : (⟨3, ![1, 256, 2]⟩ : Shape).Idx → EReal)
    (gamma : (⟨1, ![256]⟩ : Shape).Idx → EReal)
    (xb : Vec Ideal S8192x2 .f32) (Wv muv : Vec Ideal S256x2 .f32) (bv gv : Vec Ideal S1x256 .f32)
    (p : Fin 262144) (r : Fin 8192) (q : Fin 256)
    (hxb : ∀ k : Fin 2, xb (ix2 r k) = x (ix2 p k)) (hW : ∀ k : Fin 2, Wv (ix2 q k) = W (ix2 q k))
    (hmuv : ∀ k : Fin 2, muv (ix2 q k) = mu (ix3 (0 : Fin 1) q k))
    (hb : bv (ix2 (0 : Fin 1) q) = b (ix1 q)) (hg : gv (ix2 (0 : Fin 1) q) = gamma (ix1 q))
    (hx : ∀ k : Fin 2, ∃ s : ℝ, x (ix2 p k) = s) (hmu : ∀ k : Fin 2, ∃ s : ℝ, mu (ix3 (0 : Fin 1) q k) = s) :
    k0_pay1 (F := Ideal) xb Wv muv bv gv (ix2 r q) = Cert.Gabor.entry x W b mu gamma p q := by
  rw [payload_at, ← Cert.Gabor.entryExpanded_eq x W b mu gamma p q hx hmu]
  unfold Cert.Gabor.entryExpanded Cert.Gabor.distSqExpanded
  simp only [hxb, hW, hmuv, hb, hg]

/-- The field of the launch contents of the five arguments. -/
abbrev fieldOf (c : Dev nD) : S262144x256.Idx → Elt Ideal .f32 :=
  Cert.Gabor.field (m ((c : Thread nD τ).loc main_arg0)) (m ((c : Thread nD τ).loc main_arg1)) (m ((c : Thread nD τ).loc main_arg2))
    (m ((c : Thread nD τ).loc main_arg3)) (m ((c : Thread nD τ).loc main_arg4))

/-- What point t writes back is block t of the field, on finite x and μ. -/
theorem flushed_eq (c : Dev nD)
    (hx : ∀ i : S262144x2.Idx, ∃ s : ℝ, (m ((c : Thread nD τ).loc main_arg0) : S262144x2.Idx → EReal) i = (s : EReal))
    (hmu : ∀ i : S1x256x2.Idx, ∃ s : ℝ, (m ((c : Thread nD τ).loc main_arg3) : S1x256x2.Idx → EReal) i = (s : EReal))
    (t : Fin cfg0.N) :
    (dats m 0 c).flushed 5 t = ((cfg0.win 5).blk t).view.read (Elt Ideal) (fieldOf m c) := by
  rw [Cert.KernelIdeal.Value.flushed5]
  unfold out0_5
  rw [View.canon_unit_zero hz]
  simp only [View.ld_unit_zero (S := S8192x2) hz, View.ld_unit_zero (S := S256x2) hz, View.ld_unit_zero (S := S1x256) hz]
  funext j
  obtain ⟨r, q, rfl⟩ : ∃ (r : Fin 8192) (q : Fin 256), j = ix2 r q := ⟨j 0, j 1, eq_ix2 j⟩
  show k0_pay1 (F := Ideal) (iblk m c 0 t) (iblk m c 1 t) (iblk m c 3 t) (iblk m c 2 t) (iblk m c 4 t) (ix2 r q)
    = fieldOf m c (((cfg0.win 5).blk t).view.emb (ix2 r q))
  rw [out_index]
  exact entry_of_blocks (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 3 t) (iblk m c 2 t) (iblk m c 4 t) (rowOf t r) r q
    (fun k => rows_block m c t r k) (fun k => weights_block m c t q k) (fun k => centres_block m c t q k)
    (phase_block m c t q) (bandwidth_block m c t q) (fun k => hx _) (fun k => hmu _)

/-! ## The blocks tile the array -/

/-- An index of the array is in point t's block iff each coordinate is in the block's range on its axis. -/
theorem mem_blk (t : Fin cfg0.N) (i : S262144x256.Idx) :
    i ∈ ((cfg0.win 5).blk t).view.set ↔ ∀ a : Fin 2, win0_5.index t a * S8192x256.size a ≤ (i a).val
      ∧ (i a).val < win0_5.index t a * S8192x256.size a + S8192x256.size a := by
  show i ∈ ((View.whole main_v3).slice (win0_5.rect t)).set ↔ _
  rw [View.set_slice_whole, Rect.mem_set_unit]
  exact Iff.rfl

/-- Row p of the array is in the block of point ⌊p / 8192⌋, and every point writes its block back. -/
theorem cover (i : S262144x256.Idx) :
    ∃ t : Fin cfg0.N, (cfg0.win 5).flush t = true ∧ i ∈ ((cfg0.win 5).blk t).view.set := by
  have hi0 : (i 0).val < 262144 := (i 0).isLt
  have hi1 : (i 1).val < 256 := (i 1).isLt
  have hN : cfg0.N = 32 := N_0
  refine ⟨⟨(i 0).val / 8192, by omega⟩, flush0_5 _, ?_⟩
  obtain ⟨-, -, -, -, -, -, -, -, -, -, e0, e1⟩ := idx_facts ⟨(i 0).val / 8192, by omega⟩
  rw [mem_blk]
  intro a
  match a with
  | ⟨0, _⟩ =>
    show win0_5.index _ 0 * 8192 ≤ (i 0).val ∧ (i 0).val < win0_5.index _ 0 * 8192 + 8192
    rw [e0]
    show (i 0).val / 8192 * 8192 ≤ (i 0).val ∧ (i 0).val < (i 0).val / 8192 * 8192 + 8192
    omega
  | ⟨1, _⟩ =>
    show win0_5.index _ 1 * 256 ≤ (i 1).val ∧ (i 1).val < win0_5.index _ 1 * 256 + 256
    rw [e1]
    omega

/-- So, on finite x and μ, the result array ends holding the field. -/
theorem final (c : Dev nD)
    (hx : ∀ i : S262144x2.Idx, ∃ s : ℝ, (m ((c : Thread nD τ).loc main_arg0) : S262144x2.Idx → EReal) i = (s : EReal))
    (hmu : ∀ i : S1x256x2.Idx, ∃ s : ℝ, (m ((c : Thread nD τ).loc main_arg3) : S1x256x2.Idx → EReal) i = (s : EReal)) :
    (dats m 0 c).arrAt 5 cfg0.N = fieldOf m c :=
  (dats m 0 c).arrAt_eq_of_cover 5 (fieldOf m c) (fun t _ => flushed_eq m c hx hmu t) cover

/-- The kernel's run, read: on finite x and μ every weakly fair execution ends with the result array at the field of the
    arguments and the arguments unchanged. -/
theorem run
    (hx : ∀ (c : Dev nD) (i : S262144x2.Idx), ∃ s : ℝ, (m ((c : Thread nD τ).loc main_arg0) : S262144x2.Idx → EReal) i = (s : EReal))
    (hmu : ∀ (c : Dev nD) (i : S1x256x2.Idx), ∃ s : ℝ, (m ((c : Thread nD τ).loc main_arg3) : S1x256x2.Idx → EReal) i = (s : EReal)) :
    θ_run defs (onTc (τ := τ) (main (F := Ideal))) ⟨m, fun _ => 0, ρ⟩ fun r => ∀ c : Dev nD,
      r.2.mem ((c : Thread nD τ).loc main_v3) = fieldOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c (hx c) (hmu c)), (h c).2⟩)
    (Cert.KernelIdeal.Value.run_blocks m ρ)

end Cert.Gabor.Kernel

end
-- ==== Proof.lean ====
/-
  A sinusoid under a Gaussian envelope, scored for 262144 coordinate rows against 256 features:

      out[p, q] = sin (⟨x_p, W_q⟩ + b_q) · exp ((−½ · ‖x_p − μ_q‖²) · γ_q),     x_p, W_q, μ_q ∈ ℝ².

  The reference sums the squared differences of the two coordinates. The kernel, 8192 rows at a time, expands the
  square, ‖x_p − μ_q‖² = (‖x_p‖² + ‖μ_q‖²) − 2 ⟨x_p, μ_q⟩, and takes both inner products as matrix products against
  transposes. Over the real numbers the two are the same function; over the extended reals the expansion is an
  identity only where x_p and μ_q are finite, which the precondition gives (Proof/FiniteInputs.lean). The modules:
  Proof/GaborLaw.lean states the function and the law between the two spellings; Proof/ReferenceField.lean reads the
  reference's result index by index as that function; Proof/KernelEntry.lean reads one entry of the block the kernel
  body stores; Proof/KernelField.lean places the 32 stored blocks in the result array. No operation of the kernel is
  rewritten when it is read over the extended reals, so that conjunct is trivial; the three frames are the generated
  ones, the reference's its run with the result dropped.
-/
import proofs.«179647_j82532091560569_1_alg».proof.Defs
import proofs.«179647_j82532091560569_1_alg».proof.Proof.Gen.Kernel
import proofs.«179647_j82532091560569_1_alg».proof.Proof.Gen.Kernel.Skeleton
import proofs.«179647_j82532091560569_1_alg».proof.Proof.Gen.Kernel.Launch
import proofs.«179647_j82532091560569_1_alg».proof.Proof.Gen.Kernel.Points
import proofs.«179647_j82532091560569_1_alg».proof.Proof.Gen.Kernel.Frame
import proofs.«179647_j82532091560569_1_alg».proof.Proof.Gen.KernelIdeal
import proofs.«179647_j82532091560569_1_alg».proof.Proof.Gen.KernelIdeal.Skeleton
import proofs.«179647_j82532091560569_1_alg».proof.Proof.Gen.KernelIdeal.Launch
import proofs.«179647_j82532091560569_1_alg».proof.Proof.Gen.KernelIdeal.Points
import proofs.«179647_j82532091560569_1_alg».proof.Proof.Gen.KernelIdeal.Frame
import proofs.«179647_j82532091560569_1_alg».proof.Proof.Gen.ReferenceIdeal
import proofs.«179647_j82532091560569_1_alg».proof.Proof.Gen.KernelIdeal.Value
import proofs.«179647_j82532091560569_1_alg».proof.Proof.Gen.ReferenceIdeal.Run
import proofs.«179647_j82532091560569_1_alg».proof.Proof.Gen.ReferenceIdeal.Read
import proofs.«179647_j82532091560569_1_alg».proof.Proof.Gen.Pre_finite_inputs
import proofs.«179647_j82532091560569_1_alg».proof.Proof.FiniteInputs
import proofs.«179647_j82532091560569_1_alg».proof.Proof.ReferenceField
import proofs.«179647_j82532091560569_1_alg».proof.Proof.KernelField
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, x and μ finite, both programs end with the result array holding the
    field of the arguments: the kernel by the 32 blocks it writes back, each the field's block in the expanded spelling
    of the squared distance; the reference by reading its last stage index by index. -/
theorem algebraic : Cert.algebraic_KernelIdeal_ReferenceIdeal := by
  intro m ρ m' ρ' hpre hagree
  have hfin := fun c => Cert.Gabor.Finite.of_pre _ _ _ _ _ (hpre c)
  refine ⟨fun c => Cert.Gabor.Kernel.fieldOf m c,
    Cert.Gabor.Kernel.run m ρ (fun c => (hfin c).1) (fun c => (hfin c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Gabor.Reference.result_eq_field, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
